-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S2x8x128 : Shape := ⟨3, ![2, 8, 128]⟩
abbrev S512x1 : Shape := ⟨2, ![512, 1]⟩
abbrev S1x1024 : Shape := ⟨2, ![1, 1024]⟩
abbrev S1x8x128 : Shape := ⟨3, ![1, 8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S1x8192, .f32⟩
  | .hbm, ⟨6, _⟩ => ⟨S2x8x128, .f32⟩
  | .hbm, ⟨7, _⟩ => ⟨S1x1x1, .f32⟩
  | .hbm, ⟨8, _⟩ => ⟨S_, .f32⟩
  | .hbm, ⟨9, _⟩ => ⟨S1x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x1024, .f32⟩
  | .local _ .vmem, ⟨3, _⟩ => ⟨S1x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let arg2 : BitVec 32 := BitVec.ofNat 32 (i 2).val
  let c7_i32_20 : BitVec 32 := 7#32
  let v44 : BitVec 1 := Scalar.cmpi .eq arg2 c7_i32_20
  let v45 : BitVec 1 := Scalar.andi v43 v44
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S8192_S8192x1 : S8192.ShapeCasts S8192x1
  shapeCasts_S8192_S1x8192 : S8192.ShapeCasts S1x8192
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S1x8192, .f32⟩
  | .hbm, ⟨3, _⟩ => ⟨S8192x1, .f32⟩
  | .hbm, ⟨4, _⟩ => ⟨S8192x8192, .f32⟩
  | .hbm, ⟨5, _⟩ => ⟨S8192x8192, .f32⟩
  | .hbm, ⟨6, _⟩ => ⟨S8192x8192, .i1⟩
  | .hbm, ⟨7, _⟩ => ⟨S1x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.Step.lean ====
/-
  What one grid step leaves behind, case by case, as terms over the body's three pure values:
  the zero block (the reset), the tile's sum, and "old accumulator + tile sum in every lane".

  * a resetting step (first step of a core's sweep) leaves  zero + tile sum  in the accumulator;
  * every other step leaves  (what the step before left) + tile sum;
  * the last step of a sweep also copies that accumulator into the output block.
-/
import proofs.«114255_j65532611002861_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Step

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords)
  (arg3 : Memref sig .tc .vmem S512x1 .f32) (harg3 : arg3.IsWhole) (arg4 : Memref sig .tc .vmem S1x1024 .f32) (harg4 : arg4.IsWhole)
  (arg5 : Memref sig .tc .vmem S512x1 .f32) (harg5 : arg5.IsWhole) (arg6 : Memref sig .tc .vmem S1x1024 .f32) (harg6 : arg6.IsWhole)
  (arg7 : Memref sig .tc .vmem S1x8x128 .f32) (harg7 : arg7.IsWhole) (arg8 : Memref sig .tc .vmem S1x8x128 .f32) (harg8 : arg8.IsWhole)
  (x0 : Vec F S512x1 .f32) (x1 : Vec F S1x1024 .f32) (x2 : Vec F S512x1 .f32) (x3 : Vec F S1x1024 .f32) (xs0 : Vec F S1x8x128 .f32)

/-- A resetting step: the accumulator ends at the zero block plus this tile's sum. -/
theorem acc_reset (hc0 : cond0_0 i) (hc1 : ¬cond0_1 i) :
    sout0_A_0 c i arg3 harg3 arg4 harg4 arg5 harg5 arg6 harg6 arg7 harg7 arg8 harg8 hc0 hc1 x0 x1 x2 x3
      = k0_pay1 (k0_pay2 (F := F)) (k0_pay3 x0 x2 x1 x3) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1x8x128) hz3, View.readCov_unit_zero (S := S1x8x128) _ hz3]
  simp only [View.readAt_eq_ld, harg3.read_unread, harg4.read_unread, harg5.read_unread, harg6.read_unread,
    View.ld_unit_zero (S := S512x1) hz2, View.ld_unit_zero (S := S1x1024) hz2]

/-- A middle step: the accumulator ends at what the step before left plus this tile's sum. -/
theorem acc_step (hc0 : ¬cond0_0 i) (hc1 : ¬cond0_1 i) :
    sout0_B_0 c i arg3 harg3 arg4 harg4 arg5 harg5 arg6 harg6 arg7 harg7 arg8 harg8 hc0 hc1 x0 x1 x2 x3 xs0
      = k0_pay1 xs0 (k0_pay3 x0 x2 x1 x3) := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz3]
  simp only [View.readAt_eq_ld, harg3.read_unread, harg4.read_unread, harg5.read_unread, harg6.read_unread, harg8.read_unread,
    View.ld_unit_zero (S := S512x1) hz2, View.ld_unit_zero (S := S1x1024) hz2, View.ld_unit_zero (S := S1x8x128) hz3]

/-- A sweep's last step: the same for the accumulator, -/
theorem acc_last (hc0 : ¬cond0_0 i) (hc1 : cond0_1 i) :
    sout0_C_0 c i arg3 harg3 arg4 harg4 arg5 harg5 arg6 harg6 arg7 harg7 arg8 harg8 hc0 hc1 x0 x1 x2 x3 xs0
      = k0_pay1 xs0 (k0_pay3 x0 x2 x1 x3) := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread,
    View.ld_unit_zero (S := S512x1) hz2, View.ld_unit_zero (S := S1x1024) hz2, View.ld_unit_zero (S := S1x8x128) hz3]

/-- and the output block receives a copy of it. -/
theorem out_last (hc0 : ¬cond0_0 i) (hc1 : cond0_1 i) :
    out0_C_4 c i arg3 harg3 arg4 harg4 arg5 harg5 arg6 harg6 arg7 harg7 arg8 harg8 hc0 hc1 x0 x1 x2 x3 xs0
      = k0_pay1 xs0 (k0_pay3 x0 x2 x1 x3) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3, View.readCov_unit_zero (S := S1x8x128) _ hz3]
  simp only [View.readAt_eq_ld, harg3.read_unread, harg4.read_unread, harg5.read_unread, harg6.read_unread, harg8.read_unread,
    View.ld_unit_zero (S := S512x1) hz2, View.ld_unit_zero (S := S1x1024) hz2, View.ld_unit_zero (S := S1x8x128) hz3]

end Cert.KernelIdeal.Step

end
-- ==== Proof.PairLoss.lean ====
/-
  The mathematics of the pairwise loss, free of any program.

  For two vectors `x` (scores) and `t` (targets) of length 8192 the pair (a, b) contributes
      p(a, b) = [t_b > t_a] · max(½ · (μ − (x_b − x_a)) + ½ · (x_a − t_a)², 0)
  (a hinge on the score gap of every pair the targets order, anchored by row a's squared error), and the loss is
  2⁻²⁵ · Σ_{a,b} p(a, b). The margin μ, the two halves and the zero are kept as the binary words both programs print;
  they are never evaluated.

  Two facts about sums in a commutative monoid (the extended reals are one, so neither needs finiteness):
  * `sum_blocks`: cutting the 8192 × 8192 index square into 16 × 8 tiles of 512 × 1024, numbered row-major by
    k = 8·(row tile) + (column tile), and summing tile by tile gives the sum over the square.
  * `sum_Ico_reset` / `sum_Ico_step`: a running sum that restarts at every multiple of 64 is, after step n, the sum
    over the steps from the last multiple of 64 up to n.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.PairLoss

/-- One ordered pair's contribution: row entry (xa, ta), column entry (xb, tb). -/
def pair (xa ta xb tb : EReal) : EReal :=
  Scalar.select (Ideal.cmp .ogt tb ta)
    (max (Ideal.ofBits .f32 0x3F000000#32 * (Ideal.ofBits .f32 0x3C23D70A#32 - (xb - xa))
          + Ideal.ofBits .f32 0x3F000000#32 * ((xa - ta) * (xa - ta))) (Ideal.ofBits .f32 0x00000000#32))
    (Ideal.ofBits .f32 0x00000000#32)

/-- The 8192 × 8192 table of contributions. -/
def entry (x t : (⟨1, ![8192]⟩ : Shape).Idx → EReal) (a b : Fin 8192) : EReal :=
  pair (x (ix1 a)) (t (ix1 a)) (x (ix1 b)) (t (ix1 b))

/-- The sum over all ordered pairs. -/
def total (x t : (⟨1, ![8192]⟩ : Shape).Idx → EReal) : EReal := ∑ a : Fin 8192, ∑ b : Fin 8192, entry x t a b

/-- The loss: the total scaled by 2⁻²⁵ (the word both programs print for 2 / 8192²). -/
def loss (x t : (⟨1, ![8192]⟩ : Shape).Idx → EReal) : EReal := Ideal.ofBits .f32 0x33000000#32 * total x t

/-- Row `r` of tile `k`'s row block: tile k sits in row block k / 8. -/
def rowOf (k : Fin 128) (r : Fin 512) : Fin 8192 :=
  ⟨512 * (k.val / 8) + r.val, by have := k.isLt; have := r.isLt; omega⟩

/-- Column `q` of tile `k`'s column block: tile k sits in column block k % 8. -/
def colOf (k : Fin 128) (q : Fin 1024) : Fin 8192 :=
  ⟨1024 * (k.val % 8) + q.val, by have := k.isLt; have := q.isLt; omega⟩

section Sums
variable {M : Type*} [AddCommMonoid M]

/-- A sum over 8192 rows, row block by row block. -/
theorem sum_rows (g : Fin 8192 → M) :
    ∑ a, g a = ∑ ib : Fin 16, ∑ r : Fin 512, g ⟨512 * ib.val + r.val, by have := ib.isLt; have := r.isLt; omega⟩ := by
  rw [← Equiv.sum_comp (finProdFinEquiv (m := 16) (n := 512)) g, Fintype.sum_prod_type]
  refine Finset.sum_congr rfl fun ib _ => Finset.sum_congr rfl fun r _ => congrArg g (Fin.ext ?_)
  simp only [finProdFinEquiv, Equiv.coe_fn_mk]
  omega

/-- A sum over 8192 columns, column block by column block. -/
theorem sum_cols (g : Fin 8192 → M) :
    ∑ b, g b = ∑ j : Fin 8, ∑ q : Fin 1024, g ⟨1024 * j.val + q.val, by have := j.isLt; have := q.isLt; omega⟩ := by
  rw [← Equiv.sum_comp (finProdFinEquiv (m := 8) (n := 1024)) g, Fintype.sum_prod_type]
  refine Finset.sum_congr rfl fun j _ => Finset.sum_congr rfl fun q _ => congrArg g (Fin.ext ?_)
  simp only [finProdFinEquiv, Equiv.coe_fn_mk]
  omega

/-- A sum over the 128 tiles, by row block then column block. -/
theorem sum_tiles (g : Fin 128 → M) :
    ∑ k, g k = ∑ ib : Fin 16, ∑ j : Fin 8, g ⟨8 * ib.val + j.val, by have := ib.isLt; have := j.isLt; omega⟩ := by
  rw [← Equiv.sum_comp (finProdFinEquiv (m := 16) (n := 8)) g, Fintype.sum_prod_type]
  refine Finset.sum_congr rfl fun ib _ => Finset.sum_congr rfl fun j _ => congrArg g (Fin.ext ?_)
  simp only [finProdFinEquiv, Equiv.coe_fn_mk]
  omega

/-- Summing a table over the square tile by tile is summing it over the square. -/
theorem sum_blocks (f : Fin 8192 → Fin 8192 → M) :
    ∑ k : Fin 128, ∑ r : Fin 512, ∑ q : Fin 1024, f (rowOf k r) (colOf k q) = ∑ a, ∑ b, f a b := by
  rw [sum_tiles, sum_rows]
  refine Finset.sum_congr rfl fun ib _ => ?_
  rw [Finset.sum_comm]
  refine Finset.sum_congr rfl fun r _ => ?_
  rw [sum_cols]
  refine Finset.sum_congr rfl fun j _ => Finset.sum_congr rfl fun q _ => ?_
  have hib := ib.isLt
  have hj := j.isLt
  congr 1
  · exact Fin.ext (by simp only [rowOf]; omega)
  · exact Fin.ext (by simp only [colOf]; omega)

/-- At a multiple of 64 the running sum has just restarted: it holds that step's term alone. -/
theorem sum_Ico_reset (B : ℕ → M) (n : ℕ) (h : n % 64 = 0) :
    ∑ k ∈ Finset.Ico (64 * (n / 64)) (n + 1), B k = B n := by
  have e : 64 * (n / 64) = n := by omega
  rw [e, Nat.Ico_succ_singleton, Finset.sum_singleton]

/-- Elsewhere it is the running sum of the step before plus this step's term. -/
theorem sum_Ico_step (B : ℕ → M) (n : ℕ) (h : n % 64 ≠ 0) :
    ∑ k ∈ Finset.Ico (64 * (n / 64)) (n + 1), B k = (∑ k ∈ Finset.Ico (64 * ((n - 1) / 64)) (n - 1 + 1), B k) + B n := by
  have e : (n - 1) / 64 = n / 64 := by omega
  have e' : n - 1 + 1 = n := by omega
  rw [e, e', Finset.sum_Ico_succ_top (by omega)]

/-- The two halves of the grid together: steps 0..63 and 64..127 are all 128 steps. -/
theorem sum_halves (B : ℕ → M) :
    (∑ k ∈ Finset.Ico 0 64, B k) + (∑ k ∈ Finset.Ico 64 128, B k) = ∑ k : Fin 128, B k.val := by
  rw [Finset.sum_Ico_consecutive B (by omega) (by omega), ← Finset.range_eq_Ico, Finset.sum_range]

end Sums

end Cert.PairLoss

end
-- ==== Proof.Tile.lean ====
/-
  One tile of the pair table, at the ideal instance.

  A grid step holds 512 rows (scores and targets as 512 × 1 columns) and 1024 columns (as 1 × 1024 rows). Its
  512 × 1024 table of values is, entry (r, q), the pair term of row r against column q; the step's "tile sum" is the
  sum of that table (a full reduction of a [1, 512, 1024] view into one lane, from the additive neutral), and the
  accumulator update adds that one number to every lane.
-/
import proofs.«114255_j65532611002861_1_alg».proof.Proof.Gen.KernelIdeal.Skeleton
import proofs.«114255_j65532611002861_1_alg».proof.Proof.PairLoss
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen Cert.PairLoss

/-! ### Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### The two broadcasts of a tile -/

/-- A 1 × 1024 row spread down 512 rows reads its column. -/
theorem spread_col {α : Type} (x : S1x1024.Idx → α) (h : S1x1024.Broadcasts S512x1024) (r : Fin 512) (q : Fin 1024) :
    broadcastTo S512x1024 x h (ix2 r q) = x (ix2 0 q) :=
  broadcastTo_apply x h (ix2 r q) (ix2 0 q) fun a => match a with
    | ⟨0, _⟩ => rfl
    | ⟨1, _⟩ => rfl

/-- A 512 × 1 column spread across 1024 columns reads its row. -/
theorem spread_row {α : Type} (x : S512x1.Idx → α) (h : S512x1.Broadcasts S512x1024) (r : Fin 512) (q : Fin 1024) :
    broadcastTo S512x1024 x h (ix2 r q) = x (ix2 r 0) :=
  broadcastTo_apply x h (ix2 r q) (ix2 r 0) fun a => match a with
    | ⟨0, _⟩ => rfl
    | ⟨1, _⟩ => rfl

/-! ### The tile's table and its sum -/

/-- The tile's 512 × 1024 table, as the body computes it from the four blocks (row scores, row targets, column scores,
    column targets): the score gap, the target order, the row's squared error, the hinge, the mask. -/
def table (xr tr : Vec Ideal S512x1 .f32) (xc tc : Vec Ideal S1x1024 .f32) : FVec Ideal S512x1024 .f32 :=
  have gap : FVec Ideal S512x1024 .f32 :=
    subf (broadcastTo S512x1024 xc broadcasts_S1x1024_S512x1024) (broadcastTo S512x1024 xr broadcasts_S512x1_S512x1024)
  have ordered : IVec S512x1024 1 :=
    cmpf (F := Ideal) (φ := .f32) .ogt (broadcastTo S512x1024 tc broadcasts_S1x1024_S512x1024)
      (broadcastTo S512x1024 tr broadcasts_S512x1_S512x1024)
  have err : FVec Ideal S512x1 .f32 := subf xr tr
  have anchor : FVec Ideal S512x1 .f32 := mulf (broadcast S512x1 (Scalar.ofBits .f32 0x3F000000#32)) (mulf err err)
  have hinge : FVec Ideal S512x1024 .f32 :=
    addf (mulf (broadcast S512x1024 (Scalar.ofBits .f32 0x3F000000#32)) (subf (broadcast S512x1024 (Scalar.ofBits .f32 0x3C23D70A#32)) gap))
      (broadcastTo S512x1024 anchor broadcasts_S512x1_S512x1024)
  select ordered (maximumf hinge (broadcast S512x1024 (Scalar.ofBits .f32 0x00000000#32)))
    (broadcast S512x1024 (Scalar.ofBits .f32 0x00000000#32))

/-- Entry (r, q) of the table is the pair term of row r against column q. -/
theorem table_apply (xr tr : Vec Ideal S512x1 .f32) (xc tc : Vec Ideal S1x1024 .f32) (r : Fin 512) (q : Fin 1024) :
    table xr tr xc tc (ix2 r q) = pair (xr (ix2 r 0)) (tr (ix2 r 0)) (xc (ix2 0 q)) (tc (ix2 0 q)) := by
  unfold table
  simp only [select_apply, cmpf_apply, maximumf_apply, addf_apply, mulf_apply, subf_apply, broadcast_apply, spread_col, spread_row]
  rfl

/-- The body's tile sum is the full reduction of the table viewed as [1, 512, 1024] (same-shape casts of the loaded
    blocks are the identity). -/
theorem pay3_eq (xr tr : Vec Ideal S512x1 .f32) (xc tc : Vec Ideal S1x1024 .f32) :
    k0_pay3 (F := Ideal) xr tr xc tc
      = multiReduction .add [1, 2] S1 (shapeCast S1x512x1024 (table xr tr xc tc) shapeCasts_S512x1024_S1x512x1024) 0x00000000#32
          reduces_S1x512x1024_S1 (.inl rfl) rfl := by
  unfold k0_pay3 table
  simp only [shapeCast_self]

/-- The tile sum: the sum over the tile's rows and columns of the pair terms. -/
theorem tileSum (xr tr : Vec Ideal S512x1 .f32) (xc tc : Vec Ideal S1x1024 .f32) (j : S1.Idx) :
    k0_pay3 (F := Ideal) xr tr xc tc j
      = ∑ r : Fin 512, ∑ q : Fin 1024, pair (xr (ix2 r 0)) (tr (ix2 r 0)) (xc (ix2 0 q)) (tc (ix2 0 q)) := by
  rw [pay3_eq]
  refine (Ideal.multiReduction_add_total _ _ reduces_S1x512x1024_S1 (fun b => by fin_cases b; rfl) _ _ j).trans ?_
  rw [sum_idx3, Fin.sum_univ_one]
  refine Finset.sum_congr rfl fun r _ => Finset.sum_congr rfl fun q _ => ?_
  rw [shapeCast_addUnit_apply ![512, 1024] (table xr tr xc tc) shapeCasts_S512x1024_S1x512x1024 (ix3 0 r q)]
  rw [← table_apply]
  exact congrArg _ (funext fun a => match a with | ⟨0, _⟩ => rfl | ⟨1, _⟩ => rfl)

/-- The accumulator update: every lane gets the old lane plus the tile sum. -/
theorem pay1_apply (acc : Vec Ideal S1x8x128 .f32) (s : FVec Ideal S1 .f32) (y : S1x8x128.Idx) :
    k0_pay1 (F := Ideal) acc s y = acc y + s (ix1 0) := by
  unfold k0_pay1
  simp only [shapeCast_self, addf_apply, broadcast_apply]
  refine congrArg (acc y + ·) ?_
  unfold extractAt
  refine shapeCast_apply s shapeCasts_S1_S1x1x1 _ (ix1 0) ?_
  rw [Shape.rowMajor_val_one, Shape.rowMajor_val_three]
  rfl

/-- The reset block: zero in every lane. -/
theorem pay2_apply (y : S1x8x128.Idx) : k0_pay2 (F := Ideal) y = 0 := by
  unfold k0_pay2
  simp only [shapeCast_self, broadcast_apply]
  exact Ideal.ofBits_zero_f32

end Cert.KernelIdeal.Tile

end
-- ==== Proof.Sweep.lean ====
/-
  The accumulator along a core's sweep, at the ideal instance.

  The 128 grid steps are two sweeps of 64 (one per value of the leading grid coordinate). The accumulator is reset at
  the first step of each sweep and receives that step's tile sum at every step, so after step n every lane holds the
  sum of the tile sums of the steps from the sweep's start, 64·⌊n/64⌋, up to n. By induction on the step; the three
  cases of a step are the frame's own. The output block, written at a sweep's last step only, then holds that sweep's
  whole sum.
-/
import proofs.«114255_j65532611002861_1_alg».proof.Proof.Step
import proofs.«114255_j65532611002861_1_alg».proof.Proof.Tile

noncomputable section

open scoped BigOperators
open Idealize.ShloMosaic Idealize.ShloMosaic.TcCoe Idealize.SL.Sem Idealize.ShloMosaic.ValueIdx

namespace Cert.KernelIdeal.Sweep

open Cert.KernelIdeal Cert.KernelIdeal.Gen Cert.PairLoss

variable (m : (ℓ : Loc nD τ sig) → Buf (Elt Ideal) ℓ)

/-- The four blocks a step reads, at their literal types: row scores, column scores, row targets, column targets. -/
abbrev xrBlk (c : Dev nD) (t : Fin cfg0.N) : Vec Ideal S512x1 .f32 := iblk m c 0 t
abbrev xcBlk (c : Dev nD) (t : Fin cfg0.N) : Vec Ideal S1x1024 .f32 := iblk m c 1 t
abbrev trBlk (c : Dev nD) (t : Fin cfg0.N) : Vec Ideal S512x1 .f32 := iblk m c 2 t
abbrev tcBlk (c : Dev nD) (t : Fin cfg0.N) : Vec Ideal S1x1024 .f32 := iblk m c 3 t

/-- Step k's tile sum as a number (zero past the grid, so that sums over ranges of naturals make sense). -/
def tileAt (c : Dev nD) (k : ℕ) : EReal :=
  if h : k < cfg0.N then k0_pay3 (F := Ideal) (xrBlk m c ⟨k, h⟩) (trBlk m c ⟨k, h⟩) (xcBlk m c ⟨k, h⟩) (tcBlk m c ⟨k, h⟩) (ix1 0) else 0

theorem tileAt_of_lt (c : Dev nD) (k : ℕ) (h : k < cfg0.N) :
    tileAt m c k = k0_pay3 (F := Ideal) (xrBlk m c ⟨k, h⟩) (trBlk m c ⟨k, h⟩) (xcBlk m c ⟨k, h⟩) (tcBlk m c ⟨k, h⟩) (ix1 0) :=
  dif_pos h

/-- After step n every lane of the accumulator holds the tile sums of its sweep so far. -/
theorem acc_eq (c : Dev nD) (n : ℕ) : ∀ (h : n < cfg0.N) (y : S1x8x128.Idx),
    (outsAt0 m c n h).2 y = ∑ k ∈ Finset.Ico (64 * (n / 64)) (n + 1), tileAt m c k := by
  induction n using Nat.strong_induction_on with
  | _ n ih =>
    intro h y
    have hN : n < 128 := lt_of_lt_of_eq h (show cfg0.N = 128 from N_0)
    by_cases h0 : n % 64 = 0
    · have h1 : ¬ n % 64 = 63 := by omega
      rw [outsAt0_A m c ⟨n, h⟩ h0 h1]
      dsimp only
      refine (congrFun (Step.acc_reset (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
        (xrBlk m c ⟨n, h⟩) (xcBlk m c ⟨n, h⟩) (trBlk m c ⟨n, h⟩) (tcBlk m c ⟨n, h⟩) _ _) y).trans ?_
      rw [Tile.pay1_apply, Tile.pay2_apply, zero_add, sum_Ico_reset _ n h0, tileAt_of_lt m c n h]
    · have hpred : n - 1 < cfg0.N := lt_of_le_of_lt (Nat.sub_le _ _) h
      have ihp := ih (n - 1) (by omega) hpred
      by_cases h1 : n % 64 = 63
      · rw [outsAt0_C m c ⟨n, h⟩ h0 h1]
        dsimp only
        refine (congrFun (Step.acc_last (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
          (xrBlk m c ⟨n, h⟩) (xcBlk m c ⟨n, h⟩) (trBlk m c ⟨n, h⟩) (tcBlk m c ⟨n, h⟩) (outsAt0 m c (n - 1) hpred).2 _ _) y).trans ?_
        rw [Tile.pay1_apply, ihp y, sum_Ico_step _ n h0, tileAt_of_lt m c n h]
      · rw [outsAt0_B m c ⟨n, h⟩ h0 h1]
        dsimp only
        refine (congrFun (Step.acc_step (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
          (xrBlk m c ⟨n, h⟩) (xcBlk m c ⟨n, h⟩) (trBlk m c ⟨n, h⟩) (tcBlk m c ⟨n, h⟩) (outsAt0 m c (n - 1) hpred).2 _ _) y).trans ?_
        rw [Tile.pay1_apply, ihp y, sum_Ico_step _ n h0, tileAt_of_lt m c n h]

/-- At a sweep's last step the output block receives the accumulator: the sweep's whole sum. -/
theorem out_eq (c : Dev nD) (n : ℕ) (h : n < cfg0.N) (h1 : n % 64 = 63) (y : S1x8x128.Idx) :
    (outsAt0 m c n h).1 y = ∑ k ∈ Finset.Ico (64 * (n / 64)) (n + 1), tileAt m c k := by
  have h0 : ¬ n % 64 = 0 := by omega
  have hpred : n - 1 < cfg0.N := lt_of_le_of_lt (Nat.sub_le _ _) h
  rw [outsAt0_C m c ⟨n, h⟩ h0 h1]
  dsimp only
  refine (congrFun (Step.out_last (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
    (xrBlk m c ⟨n, h⟩) (xcBlk m c ⟨n, h⟩) (trBlk m c ⟨n, h⟩) (tcBlk m c ⟨n, h⟩) (outsAt0 m c (n - 1) hpred).2 _ _) y).trans ?_
  rw [Tile.pay1_apply, acc_eq m c (n - 1) hpred y, sum_Ico_step _ n h0, tileAt_of_lt m c n h]

end Cert.KernelIdeal.Sweep

end
-- ==== Proof.Result.lean ====
/-
  The idealized kernel's result, read off its run.

  * Blocks. Step t (row block ⌊t/8⌋, column block t mod 8) reads rows 512·⌊t/8⌋ + r of the scores and targets and
    columns 1024·(t mod 8) + q; the four windowed arrays are reshapes of the two arguments, which keep the row-major
    position. So step t's tile sum is the sum of the pair table over that tile.
  * The output array [2, 8, 128]. Block s is written back once, after the last step of sweep s, and then holds the
    sweep's sum in every lane; the two blocks cover the array.
  * The tail adds lane (0,0,0) of each block and scales by 2⁻²⁵. The two sweeps are all 128 tiles, and the tiles cover the
    8192 × 8192 square, so the result is the loss.
-/
import proofs.«114255_j65532611002861_1_alg».proof.Proof.Sweep
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Sweep Cert.PairLoss

variable (m : (ℓ : Loc nD τ sig) → Buf (Elt Ideal) ℓ) (ρ : Dev nD → PrngReg)

/-! ### The windowed arrays are reshapes of the arguments -/

theorem V_v0 (c : Dev nD) : V m c main_v0 = shapeCast S8192x1 (m ((c : Thread nD τ).loc main_arg0)) shapeCasts_S8192_S8192x1 := by
  show StableHlo.after hostOps0 (fun b => m (c, b)) (Proc.devRef .tc main_v0) = _
  after_results
  rfl
theorem V_v1 (c : Dev nD) : V m c main_v1 = shapeCast S1x8192 (m ((c : Thread nD τ).loc main_arg0)) shapeCasts_S8192_S1x8192 := by
  show StableHlo.after hostOps0 (fun b => m (c, b)) (Proc.devRef .tc main_v1) = _
  after_results
  rfl
theorem V_v2 (c : Dev nD) : V m c main_v2 = shapeCast S8192x1 (m ((c : Thread nD τ).loc main_arg1)) shapeCasts_S8192_S8192x1 := by
  show StableHlo.after hostOps0 (fun b => m (c, b)) (Proc.devRef .tc main_v2) = _
  after_results
  rfl
theorem V_v3 (c : Dev nD) : V m c main_v3 = shapeCast S1x8192 (m ((c : Thread nD τ).loc main_arg1)) shapeCasts_S8192_S1x8192 := by
  show StableHlo.after hostOps0 (fun b => m (c, b)) (Proc.devRef .tc main_v3) = _
  after_results
  rfl

/-! ### Where the windows sit: the printed index maps, decided over the grid -/

theorem idx_rows : ∀ t : Fin cfg0.N, win0_0.index t (0 : Fin 2) = t.val / 8 ∧ win0_0.index t (1 : Fin 2) = 0
    ∧ win0_2.index t (0 : Fin 2) = t.val / 8 ∧ win0_2.index t (1 : Fin 2) = 0 :=
  (by decide +kernel : ∀ t : Fin grid0.N, _)
theorem idx_cols : ∀ t : Fin cfg0.N, win0_1.index t (0 : Fin 2) = 0 ∧ win0_1.index t (1 : Fin 2) = t.val % 8
    ∧ win0_3.index t (0 : Fin 2) = 0 ∧ win0_3.index t (1 : Fin 2) = t.val % 8 :=
  (by decide +kernel : ∀ t : Fin grid0.N, _)
theorem idx_out : ∀ t : Fin cfg0.N, win0_4.index t (0 : Fin 3) = t.val / 64 ∧ win0_4.index t (1 : Fin 3) = 0
    ∧ win0_4.index t (2 : Fin 3) = 0 :=
  (by decide +kernel : ∀ t : Fin grid0.N, _)

/-- A step as one of the 128 tiles. -/
abbrev tileOf (t : Fin cfg0.N) : Fin 128 := ⟨t.val, lt_of_lt_of_eq t.isLt N_0⟩

/-! ### The four blocks of a step, read off the arguments -/

theorem xr_read (c : Dev nD) (t : Fin cfg0.N) (r : Fin 512) :
    xrBlk m c t (ix2 r 0) = m ((c : Thread nD τ).loc main_arg0) (ix1 (rowOf (tileOf t) r)) := by
  show iblk m c 0 t (ix2 r 0) = _
  unfold iblk
  rw [View.read_apply]
  show V m c main_v0 (((cfg0.win 0).blk t).view.emb (ix2 r 0)) = _
  rw [V_v0]
  refine shapeCast_apply _ _ _ _ ?_
  refine (Shape.rowMajor_val_one (d := ![8192]) _).trans (Eq.trans ?_ (Shape.rowMajor_val_two (d := ![8192, 1]) _).symm)
  obtain ⟨e0, e1, -, -⟩ := idx_rows t
  show 512 * (t.val / 8) + r.val = (win0_0.index t (0 : Fin 2) * 512 + 1 * r.val) * 1 + (win0_0.index t (1 : Fin 2) * 1 + 1 * 0)
  rw [e0, e1]; omega

theorem tr_read (c : Dev nD) (t : Fin cfg0.N) (r : Fin 512) :
    trBlk m c t (ix2 r 0) = m ((c : Thread nD τ).loc main_arg1) (ix1 (rowOf (tileOf t) r)) := by
  show iblk m c 2 t (ix2 r 0) = _
  unfold iblk
  rw [View.read_apply]
  show V m c main_v2 (((cfg0.win 2).blk t).view.emb (ix2 r 0)) = _
  rw [V_v2]
  refine shapeCast_apply _ _ _ _ ?_
  refine (Shape.rowMajor_val_one (d := ![8192]) _).trans (Eq.trans ?_ (Shape.rowMajor_val_two (d := ![8192, 1]) _).symm)
  obtain ⟨-, -, e0, e1⟩ := idx_rows t
  show 512 * (t.val / 8) + r.val = (win0_2.index t (0 : Fin 2) * 512 + 1 * r.val) * 1 + (win0_2.index t (1 : Fin 2) * 1 + 1 * 0)
  rw [e0, e1]; omega

theorem xc_read (c : Dev nD) (t : Fin cfg0.N) (q : Fin 1024) :
    xcBlk m c t (ix2 0 q) = m ((c : Thread nD τ).loc main_arg0) (ix1 (colOf (tileOf t) q)) := by
  show iblk m c 1 t (ix2 0 q) = _
  unfold iblk
  rw [View.read_apply]
  show V m c main_v1 (((cfg0.win 1).blk t).view.emb (ix2 0 q)) = _
  rw [V_v1]
  refine shapeCast_apply _ _ _ _ ?_
  refine (Shape.rowMajor_val_one (d := ![8192]) _).trans (Eq.trans ?_ (Shape.rowMajor_val_two (d := ![1, 8192]) _).symm)
  obtain ⟨e0, e1, -, -⟩ := idx_cols t
  show 1024 * (t.val % 8) + q.val = (win0_1.index t (0 : Fin 2) * 1 + 1 * 0) * 8192 + (win0_1.index t (1 : Fin 2) * 1024 + 1 * q.val)
  rw [e0, e1]; omega

theorem tc_read (c : Dev nD) (t : Fin cfg0.N) (q : Fin 1024) :
    tcBlk m c t (ix2 0 q) = m ((c : Thread nD τ).loc main_arg1) (ix1 (colOf (tileOf t) q)) := by
  show iblk m c 3 t (ix2 0 q) = _
  unfold iblk
  rw [View.read_apply]
  show V m c main_v3 (((cfg0.win 3).blk t).view.emb (ix2 0 q)) = _
  rw [V_v3]
  refine shapeCast_apply _ _ _ _ ?_
  refine (Shape.rowMajor_val_one (d := ![8192]) _).trans (Eq.trans ?_ (Shape.rowMajor_val_two (d := ![1, 8192]) _).symm)
  obtain ⟨-, -, e0, e1⟩ := idx_cols t
  show 1024 * (t.val % 8) + q.val = (win0_3.index t (0 : Fin 2) * 1 + 1 * 0) * 8192 + (win0_3.index t (1 : Fin 2) * 1024 + 1 * q.val)
  rw [e0, e1]; omega

/-- Step k's tile sum is the sum of the pair table over tile k. -/
theorem tileAt_eq (c : Dev nD) (k : Fin 128) :
    tileAt m c k.val = ∑ r : Fin 512, ∑ q : Fin 1024,
      entry (m ((c : Thread nD τ).loc main_arg0)) (m ((c : Thread nD τ).loc main_arg1)) (rowOf k r) (colOf k q) := by
  have hk : k.val < cfg0.N := lt_of_lt_of_eq k.isLt N_0.symm
  rw [tileAt_of_lt m c k.val hk, Tile.tileSum]
  refine Finset.sum_congr rfl fun r _ => Finset.sum_congr rfl fun q _ => ?_
  rw [xr_read, tr_read, xc_read, tc_read]
  rfl

/-! ### The output array -/

/-- The output array after the run: block s holds sweep s's sum in every lane. -/
def outArr (c : Dev nD) : S2x8x128.Idx → EReal :=
  fun i => ∑ k ∈ Finset.Ico (64 * (i 0).val) (64 * (i 0).val + 64), tileAt m c k

/-- What a write-back writes is that block of it. -/
theorem flushed_eq (c : Dev nD) (t : Fin cfg0.N) (hf : (cfg0.win 4).flush t = true) :
    (dats m 0 c).flushed 4 t = ((cfg0.win 4).blk t).view.read (Elt Ideal) (outArr m c) := by
  have h63 : t.val % 64 = 63 := (flush0_4 t).mp hf
  show (cfg0.win 4).cut (grid0.coords t) ((dats m 0 c).after 4 t) = _
  rw [after0_4]
  funext y
  rw [View.read_apply]
  show (outsAt0 m c t.val t.isLt).1 y = outArr m c (((cfg0.win 4).blk t).view.emb y)
  rw [out_eq m c t.val t.isLt h63 y]
  unfold outArr
  have e : ((((cfg0.win 4).blk t).view.emb y) 0).val = t.val / 64 := by
    show win0_4.index t (0 : Fin 3) * 1 + 1 * (y 0).val = _
    have hy : (y 0).val < 1 := (y 0).isLt
    rw [(idx_out t).1]; omega
  rw [e, show t.val + 1 = 64 * (t.val / 64) + 64 by omega]

/-- The two write-backs cover the array. -/
theorem covered (c : Dev nD) (i : S2x8x128.Idx) :
    ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  have hlt : 64 * (i 0).val + 63 < cfg0.N := by rw [show cfg0.N = 128 from N_0]; omega
  let t : Fin cfg0.N := ⟨64 * (i 0).val + 63, hlt⟩
  have htv : t.val = 64 * (i 0).val + 63 := rfl
  refine ⟨t, (flush0_4 t).mpr (by rw [htv]; omega), ?_⟩
  show i ∈ ((View.whole main_v4).slice (win0_4.rect t)).set
  rw [View.set_slice_whole, Rect.mem_set_unit]
  obtain ⟨e0, e1, e2⟩ := idx_out t
  intro a
  match a with
  | ⟨0, _⟩ => show win0_4.index t (0 : Fin 3) * 1 ≤ (i 0).val ∧ (i 0).val < win0_4.index t (0 : Fin 3) * 1 + 1
              rw [e0, htv]; omega
  | ⟨1, _⟩ => show win0_4.index t (1 : Fin 3) * 8 ≤ (i 1).val ∧ (i 1).val < win0_4.index t (1 : Fin 3) * 8 + 8
              rw [e1]; omega
  | ⟨2, _⟩ => show win0_4.index t (2 : Fin 3) * 128 ≤ (i 2).val ∧ (i 2).val < win0_4.index t (2 : Fin 3) * 128 + 128
              rw [e2]; omega

/-- So the output array ends at `outArr`. -/
theorem final (c : Dev nD) : (dats m 0 c).arrAt 4 cfg0.N = outArr m c :=
  (dats m 0 c).arrAt_eq_of_cover 4 (outArr m c) (flushed_eq m c) (covered c)

/-! ### The tail and the result -/

/-- The two sweeps' sums together are the sum of the whole pair table. -/
theorem sweeps_total (c : Dev nD) :
    outArr m c (ix3 0 0 0) + outArr m c (ix3 1 0 0)
      = total (m ((c : Thread nD τ).loc main_arg0)) (m ((c : Thread nD τ).loc main_arg1)) := by
  unfold outArr
  show (∑ k ∈ Finset.Ico 0 64, tileAt m c k) + (∑ k ∈ Finset.Ico 64 128, tileAt m c k) = _
  rw [sum_halves (tileAt m c)]
  simp only [tileAt_eq]
  exact sum_blocks _

/-- A [1, 1, 1] array has one index. -/
theorem idx111 (k : S1x1x1.Idx) : k = ix3 0 0 0 :=
  funext fun d => match d with
    | ⟨0, _⟩ => Fin.ext (Nat.lt_one_iff.mp (k 0).isLt)
    | ⟨1, _⟩ => Fin.ext (Nat.lt_one_iff.mp (k 1).isLt)
    | ⟨2, _⟩ => Fin.ext (Nat.lt_one_iff.mp (k 2).isLt)

/-- Reading a [1, 1, 1] array as a scalar reads its one entry. -/
theorem scalar_read (v : S1x1x1.Idx → EReal) (i : S_.Idx) : shapeCast S_ v shapeCasts_S1x1x1_S_ i = v (ix3 0 0 0) := by
  unfold shapeCast
  exact congrArg v (idx111 _)

/-- The slice [s : s+1, 0:1, 0:1] of the output array reads lane (s, 0, 0). -/
theorem lane_read (v : S2x8x128.Idx → EReal) (s : Fin 2) (off : Fin 3 → Nat) (hoff : off = ![s.val, 0, 0])
    (h : S2x8x128.Slices off S1x1x1) : extractStridedSlice S1x1x1 off v h (ix3 0 0 0) = v (ix3 s 0 0) := by
  subst hoff
  exact extractStridedSlice_apply _ v h (ix3 0 0 0) (ix3 s 0 0) fun a => match a with
    | ⟨0, _⟩ => rfl
    | ⟨1, _⟩ => rfl
    | ⟨2, _⟩ => rfl

/-- The program's result is the loss of its two arguments. -/
theorem result_eq (c : Dev nD) :
    Pipeline.afterTail₀ cfgs (dats m) 0 (V0 m) [hostOps1] c main_v10
      = fun _ => loss (m ((c : Thread nD τ).loc main_arg0)) (m ((c : Thread nD τ).loc main_arg1)) := by
  have hv4 : Pipeline.withArrays (cfgs 0).spec c (V0 m c) (fun w => (dats m 0 c).arrAt w (cfgs 0).N) (Proc.devRef .tc main_v4)
      = outArr m c := (Pipeline.withArrays_arr spec0 launch0.win.arr_inj c _ _ 4).trans (final m c)
  unfold Pipeline.afterTail₀
  show StableHlo.after hostOps1 _ (Proc.devRef .tc main_v10) = _
  after_results
  rw [hv4]
  funext i
  show Ideal.ofBits .f32 0x33000000#32
      * (shapeCast S_ (extractStridedSlice S1x1x1 ![0, 0, 0] (outArr m c) slices_S2x8x128_S1x1x1_0_0_0) shapeCasts_S1x1x1_S_ i
        + shapeCast S_ (extractStridedSlice S1x1x1 ![1, 0, 0] (outArr m c) slices_S2x8x128_S1x1x1_1_0_0) shapeCasts_S1x1x1_S_ i) = _
  rw [scalar_read, scalar_read, lane_read (outArr m c) 0 ![0, 0, 0] rfl, lane_read (outArr m c) 1 ![1, 0, 0] rfl, sweeps_total]
  rfl

/-- The run, read: the result at the loss of the two arguments, the arguments unchanged. -/
theorem run : θ_run defs (onTc (τ := τ) (main (F := Ideal))) ⟨m, fun _ => 0, ρ⟩ fun r => ∀ c : Dev nD,
      r.2.mem ((c : Thread nD τ).loc main_v10)
          = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v10 (Pipeline.mem_restRefs_of main_v10 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference at the ideal instance: its 8192 × 8192 table holds, at (a, b), the pair term of row a against column b
  (the row and column vectors are broadcasts of the two arguments), and its result is the initial zero plus the sum of
  the whole table, scaled by 2⁻²⁵ — the loss.
-/
import proofs.«114255_j65532611002861_1_alg».proof.Proof.Gen.ReferenceIdeal.Read
import proofs.«114255_j65532611002861_1_alg».proof.Proof.PairLoss
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Gen Cert.ReferenceIdeal.Read Cert.PairLoss

/-! ### Where the broadcasts read: column vectors at the column, row vectors at the row -/

theorem col_t (a b : Fin 8192) : idx_main_v0 (idx_main_v2 (ix2 a b)) = ix1 b := funext fun d => match d with | ⟨0, _⟩ => rfl
theorem row_t (a b : Fin 8192) : idx_main_v1 (idx_main_v3 (ix2 a b)) = ix1 a := funext fun d => match d with | ⟨0, _⟩ => rfl
theorem col_x (a b : Fin 8192) : idx_main_v5 (idx_main_v7 (ix2 a b)) = ix1 b := funext fun d => match d with | ⟨0, _⟩ => rfl
theorem row_x (a b : Fin 8192) : idx_main_v6 (idx_main_v8 (ix2 a b)) = ix1 a := funext fun d => match d with | ⟨0, _⟩ => rfl
theorem row_sq (a b : Fin 8192) : idx_main_v18 (idx_main_v19 (ix2 a b)) = ix1 a := funext fun d => match d with | ⟨0, _⟩ => rfl

/-- Entry (a, b) of the reference's masked table is the pair term of row a against column b. -/
theorem table_apply (x t : (⟨S8192, .f32⟩ : BufTy).Contents (Elt Ideal)) (a b : Fin 8192) :
    val_main_v23 (F := Ideal) x t (ix2 a b) = entry x t a b := by
  rw [val_main_v23_apply, val_main_v4_apply, val_main_v22_apply, val_main_v20_apply, val_main_v17_apply, val_main_v15_apply,
    val_main_v9_apply, val_main_v2_apply, val_main_v0_apply, val_main_v3_apply, val_main_v1_apply, val_main_v7_apply,
    val_main_v5_apply, val_main_v8_apply, val_main_v6_apply, val_main_v19_apply, val_main_v18_apply, val_main_v13_apply,
    val_main_v11_apply, val_main_v10_apply, val_main_v12_apply, val_main_v14_apply, val_main_v16_apply, val_main_v21_apply,
    val_main_call0_v1_apply, col_t, row_t, col_x, row_x, row_sq]
  rfl

/-- The reference's result is the loss. -/
theorem result_eq (x t : (⟨S8192, .f32⟩ : BufTy).Contents (Elt Ideal)) (i : S_.Idx) :
    val_main_v25 (F := Ideal) x t i = loss x t := by
  rw [val_main_v25_apply, val_main_v24_apply, sum_idx2]
  simp only [table_apply]
  show Ideal.ofBits .f32 0x33000000#32 * (Ideal.ofBits .f32 0x00000000#32 + _) = _
  rw [Ideal.ofBits_zero_f32, zero_add]
  rfl

end Cert.ReferenceIdeal.RefValue

end
-- ==== Proof.lean ====
/-
  The certificate of the pairwise hinge-and-anchor loss.

  Both programs compute  2⁻²⁵ · Σ_{a,b} [t_b > t_a] · max(½(μ − (x_b − x_a)) + ½(x_a − t_a)², 0)  over two vectors of
  length 8192. The reference builds the whole 8192 × 8192 table and sums it. The kernel cuts the table into 128 tiles of
  512 × 1024, sums each tile, accumulates the tile sums along two sweeps of 64 tiles, writes each sweep's sum into its
  block of a [2, 8, 128] array, and the host adds the two and scales. Over the extended reals addition is commutative
  and associative and zero is neutral, so the regrouped sum is the same sum; no law here needs the inputs finite, and
  both sides scale after summing.

  * The three frames: the two kernels' by their generated frames, the reference's by its generated run.
  * The idealization rewrote nothing.
  * The two results agree: the kernel's run read off its frame (the modules Step, Tile, Sweep, Result), the reference's
    read stage by stage (RefValue), both against the one specification in PairLoss.
-/
import proofs.«114255_j65532611002861_1_alg».proof.Defs
import proofs.«114255_j65532611002861_1_alg».proof.Proof.Gen.Kernel
import proofs.«114255_j65532611002861_1_alg».proof.Proof.Gen.Kernel.Skeleton
import proofs.«114255_j65532611002861_1_alg».proof.Proof.Gen.Kernel.Launch
import proofs.«114255_j65532611002861_1_alg».proof.Proof.Gen.Kernel.Points
import proofs.«114255_j65532611002861_1_alg».proof.Proof.Gen.Kernel.Frame
import proofs.«114255_j65532611002861_1_alg».proof.Proof.Gen.KernelIdeal
import proofs.«114255_j65532611002861_1_alg».proof.Proof.Gen.KernelIdeal.Skeleton
import proofs.«114255_j65532611002861_1_alg».proof.Proof.Gen.KernelIdeal.Launch
import proofs.«114255_j65532611002861_1_alg».proof.Proof.Gen.KernelIdeal.Points
import proofs.«114255_j65532611002861_1_alg».proof.Proof.Gen.KernelIdeal.Frame
import proofs.«114255_j65532611002861_1_alg».proof.Proof.Gen.ReferenceIdeal
import proofs.«114255_j65532611002861_1_alg».proof.Proof.Gen.ReferenceIdeal.Run
import proofs.«114255_j65532611002861_1_alg».proof.Proof.Gen.ReferenceIdeal.Read
import proofs.«114255_j65532611002861_1_alg».proof.Proof.Gen.Pre_finite_inputs
import proofs.«114255_j65532611002861_1_alg».proof.Proof.Result
import proofs.«114255_j65532611002861_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, the idealized kernel ends at the loss of its arguments and the
    idealized reference at the loss of its own: the same extended real. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal) _ _).trans ?_
  rw [(hagree c).1, (hagree c).2]
  funext i
  exact Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
